-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x1024 : Shape := ⟨3, ![2, 1024, 1024]⟩
abbrev S768x1024 : Shape := ⟨2, ![768, 1024]⟩
abbrev S10x64 : Shape := ⟨2, ![10, 64]⟩
abbrev S64 : Shape := ⟨1, ![64]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel
  bcast_S_S768x1024 : S_.BroadcastsInDim S768x1024 (![] : Fin 0 → Fin S768x1024.rank)
  reducesTo_S768x1024_S_d0_1 : S768x1024.ReducesTo [0, 1] S_
  bcast_S_S10x64 : S_.BroadcastsInDim S10x64 (![] : Fin 0 → Fin S10x64.rank)
  reducesTo_S10x64_S_d0_1 : S10x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S2x1024x1024 .f32) (main_arg1 : FVec F S768x1024 .f32) (main_arg2 : FVec F S10x64 .f32) (main_arg3 : FVec F S64 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  let main_v4 : FVec F S768x1024 .f32 := Host.absf main_arg1
  let main_cst_0 : FVec F S_ .f32 := constant S_ .f32 0x7F800000#32
  let main_v5 : FVec F S768x1024 .f32 := broadcastInDim S768x1024 ![] bcast_S_S768x1024 main_cst_0
  let main_v6 : IVec S768x1024 1 := cmpf .olt main_v4 main_v5
  let main_c_1 : IVec S_ 1 := constantI S_ 1 1#1
  let main_v7 : IVec S_ 1 := (fun x v => Host.reduce IntOp.andi x v reducesTo_S768x1024_S_d0_1 h_S_) main_v6 main_c_1
  let main_v8 : IVec S_ 1 := andi main_v3 main_v7
  let main_v9 : FVec F S10x64 .f32 := Host.absf main_arg2
  let main_cst_2 : FVec F S_ .f32 := constant S_ .f32 0x7F800000#32
  let main_v10 : FVec F S10x64 .f32 := broadcastInDim S10x64 ![] bcast_S_S10x64 main_cst_2
  let main_v11 : IVec S10x64 1 := cmpf .olt main_v9 main_v10
  let main_c_3 : IVec S_ 1 := constantI S_ 1 1#1
  let main_v12 : IVec S_ 1 := (fun x v => Host.reduce IntOp.andi x v reducesTo_S10x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S2x1024x1024 : Shape := ⟨3, ![2, 1024, 1024]⟩
abbrev S768x1024 : Shape := ⟨2, ![768, 1024]⟩
abbrev S10x64 : Shape := ⟨2, ![10, 64]⟩
abbrev S64 : Shape := ⟨1, ![64]⟩
abbrev S12x12 : Shape := ⟨2, ![12, 12]⟩
abbrev S_ : Shape := ⟨0, ![]⟩
abbrev S12x1x12x1 : Shape := ⟨4, ![12, 1, 12, 1]⟩
abbrev S1x10x1x64 : Shape := ⟨4, ![1, 10, 1, 64]⟩
abbrev S12x10x12x64 : Shape := ⟨4, ![12, 10, 12, 64]⟩
abbrev S120x768 : Shape := ⟨2, ![120, 768]⟩
abbrev S128x768 : Shape := ⟨2, ![128, 768]⟩
abbrev S1x64 : Shape := ⟨2, ![1, 64]⟩
abbrev S12x64 : Shape := ⟨2, ![12, 64]⟩
abbrev S768 : Shape := ⟨1, ![768]⟩
abbrev S1x768 : Shape := ⟨2, ![1, 768]⟩
abbrev S384x1024x64 : Shape := ⟨3, ![384, 1024, 64]⟩
abbrev S24x1024 : Shape := ⟨2, ![24, 1024]⟩
abbrev S12x1024x64 : Shape := ⟨3, ![12, 1024, 64]⟩
abbrev S1x1024x1024 : Shape := ⟨3, ![1, 1024, 1024]⟩
abbrev S1024x1024 : Shape := ⟨2, ![1024, 1024]⟩
abbrev S12x2x1024 : Shape := ⟨3, ![12, 2, 1024]⟩
abbrev S12x10x1024 : Shape := ⟨3, ![12, 10, 1024]⟩
abbrev S120x1024 : Shape := ⟨2, ![120, 1024]⟩
abbrev S8x1024 : Shape := ⟨2, ![8, 1024]⟩
abbrev S128x1024 : Shape := ⟨2, ![128, 1024]⟩
abbrev S1024x128 : Shape := ⟨2, ![1024, 128]⟩
abbrev S1024x768 : Shape := ⟨2, ![1024, 768]⟩
abbrev S1024x64 : Shape := ⟨2, ![1024, 64]⟩
abbrev S1x1024x64 : Shape := ⟨3, ![1, 1024, 64]⟩

abbrev nBuf : Space → Nat
  | .hbm => 25
  | .vmem => 7
  | .smem => 0
  | _ => 0

abbrev bufTy : (tb : Table) → Fin (tcTables nBuf tb) → BufTy
  | .hbm, ⟨0, _⟩ => ⟨S2x1024x1024, .f32⟩
  | .hbm, ⟨1, _⟩ => ⟨S768x1024, .f32⟩
  | .hbm, ⟨2, _⟩ => ⟨S10x64, .f32⟩
  | .hbm, ⟨3, _⟩ => ⟨S64, .f32⟩
  | .hbm, ⟨4, _⟩ => ⟨S12x12, .i32⟩
  | .hbm, ⟨5, _⟩ => ⟨S12x12, .i32⟩
  | .hbm, ⟨6, _⟩ => ⟨S_, .i32⟩
  | .hbm, ⟨7, _⟩ => ⟨S12x12, .i32⟩
  | .hbm, ⟨8, _⟩ => ⟨S12x12, .i32⟩
  | .hbm, ⟨9, _⟩ => ⟨S12x12, .i1⟩
  | .hbm, ⟨10, _⟩ => ⟨S12x12, .f32⟩
  | .hbm, ⟨11, _⟩ => ⟨S12x1x12x1, .f32⟩
  | .hbm, ⟨12, _⟩ => ⟨S1x10x1x64, .f32⟩
  | .hbm, ⟨13, _⟩ => ⟨S12x10x12x64, .f32⟩
  | .hbm, ⟨14, _⟩ => ⟨S12x10x12x64, .f32⟩
  | .hbm, ⟨15, _⟩ => ⟨S12x10x12x64, .f32⟩
  | .hbm, ⟨16, _⟩ => ⟨S120x768, .f32⟩
  | .hbm, ⟨17, _⟩ => ⟨S_, .i32⟩
  | .hbm, ⟨18, _⟩ => ⟨S_, .f32⟩
  | .hbm, ⟨19, _⟩ => ⟨S128x768, .f32⟩
  | .hbm, ⟨20, _⟩ => ⟨S1x64, .f32⟩
  | .hbm, ⟨21, _⟩ => ⟨S12x64, .f32⟩
  | .hbm, ⟨22, _⟩ => ⟨S768, .f32⟩
  | .hbm, ⟨23, _⟩ => ⟨S1x768, .f32⟩
  | .hbm, ⟨24, _⟩ => ⟨S384x1024x64, .f32⟩
  | .local _ .vmem, ⟨0, _⟩ => ⟨S2x1024x1024, .f32⟩
  | .local _ .vmem, ⟨1, _⟩ => ⟨S24x1024, .f32⟩
  | .local _ .vmem, ⟨2, _⟩ => ⟨S24x1024, .f32⟩
  | .local _ .vmem, ⟨3, _⟩ => ⟨S128x768, .f32⟩
  | .local _ .vmem, ⟨4, _⟩ => ⟨S1x768, .f32⟩
  | .local _ .vmem, ⟨5, _⟩ => ⟨S12x1024x64, .f32⟩
  | .local _ .vmem, ⟨6, _⟩ => ⟨S12x1024x64, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_c : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_v6 : Ref sig .tc := ⟨.hbm, 16, rfl⟩
abbrev main_call0_c_0 : Ref sig .tc := ⟨.hbm, 17, rfl⟩
abbrev main_call0_call1_v0 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v0 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S24x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S12x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S12x12 : S_.BroadcastsInDim S12x12 (![] : Fin 0 → Fin S12x12.rank)
  bcast_S12x12_S12x1x12x1_0_2 : S12x12.BroadcastsInDim S12x1x12x1 (![0, 2] : Fin 2 → Fin S12x1x12x1.rank)
  bcast_S10x64_S1x10x1x64_1_3 : S10x64.BroadcastsInDim S1x10x1x64 (![1, 3] : Fin 2 → Fin S1x10x1x64.rank)
  bcast_S12x1x12x1_S12x10x12x64_0_1_2_3 : S12x1x12x1.BroadcastsInDim S12x10x12x64 (![0, 1, 2, 3] : Fin 4 → Fin S12x10x12x64.rank)
  bcast_S1x10x1x64_S12x10x12x64_0_1_2_3 : S1x10x1x64.BroadcastsInDim S12x10x12x64 (![0, 1, 2, 3] : Fin 4 → Fin S12x10x12x64.rank)
  shapeCasts_S12x10x12x64_S120x768 : S12x10x12x64.ShapeCasts S120x768
  pads_S120x768_S128x768_080_000 : S120x768.Pads (![0, 0] : Fin 2 → Nat) ![8, 0] ![0, 0] S128x768
  h_S_ : 0 < S_.numel
  shapeCasts_S64_S1x64 : S64.ShapeCasts S1x64
  bcast_S1x64_S12x64_0_1 : S1x64.BroadcastsInDim S12x64 (![0, 1] : Fin 2 → Fin S12x64.rank)
  shapeCasts_S12x64_S768 : S12x64.ShapeCasts S768
  shapeCasts_S768_S1x768 : S768.ShapeCasts S1x768
  inb_S24x1024_S24x1024_0_0 : ∀ a, (![0, 0] : Fin 2 → Nat) a + S24x1024.size a ≤ S24x1024.size a
  h_S24x1024 : 0 < S24x1024.numel
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  inb_S2x1024x1024_S1x1024x1024_1_0_0 : ∀ a, (![1, 0, 0] : Fin 3 → Nat) a + S1x1024x1024.size a ≤ S2x1024x1024.size a
  shapeCasts_S24x1024_S12x2x1024 : S24x1024.ShapeCasts S12x2x1024
  concatenates_S12x2x1024_S12x2x1024_S12x2x1024_S12x2x1024_S12x2x1024_S12x10x1024_d1 : Shape.Concatenates [S12x2x1024, S12x2x1024, S12x2x1024, S12x2x1024, S12x2x1024] S12x10x1024 1
  shapeCasts_S12x10x1024_S120x1024 : S12x10x1024.ShapeCasts S120x1024
  concatenates_S120x1024_S8x1024_S128x1024_d0 : Shape.Concatenates [S120x1024, S8x1024] S128x1024 0
  transposes_S128x1024_p1_0_S1024x128 : S128x1024.Transposes [1, 0] S1024x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x64 : S1024x768.Slices ![0, 0] S1024x64
  inb_S12x1024x64_S1x1024x64_0_0_0 : ∀ a, (![0, 0, 0] : Fin 3 → Nat) a + S1x1024x64.size a ≤ S12x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  slices_S1024x768_o0_64_S1024x64 : S1024x768.Slices ![0, 64] S1024x64
  inb_S12x1024x64_S1x1024x64_1_0_0 : ∀ a, (![1, 0, 0] : Fin 3 → Nat) a + S1x1024x64.size a ≤ S12x1024x64.size a
  slices_S1024x768_o0_128_S1024x64 : S1024x768.Slices ![0, 128] S1024x64
  inb_S12x1024x64_S1x1024x64_2_0_0 : ∀ a, (![2, 0, 0] : Fin 3 → Nat) a + S1x1024x64.size a ≤ S12x1024x64.size a
  slices_S1024x768_o0_192_S1024x64 : S1024x768.Slices ![0, 192] S1024x64
  inb_S12x1024x64_S1x1024x64_3_0_0 : ∀ a, (![3, 0, 0] : Fin 3 → Nat) a + S1x1024x64.size a ≤ S12x1024x64.size a
  slices_S1024x768_o0_256_S1024x64 : S1024x768.Slices ![0, 256] S1024x64
  inb_S12x1024x64_S1x1024x64_4_0_0 : ∀ a, (![4, 0, 0] : Fin 3 → Nat) a + S1x1024x64.size a ≤ S12x1024x64.size a
  slices_S1024x768_o0_320_S1024x64 : S1024x768.Slices ![0, 320] S1024x64
  inb_S12x1024x64_S1x1024x64_5_0_0 : ∀ a, (![5, 0, 0] : Fin 3 → Nat) a + S1x1024x64.size a ≤ S12x1024x64.size a
  slices_S1024x768_o0_384_S1024x64 : S1024x768.Slices ![0, 384] S1024x64
  inb_S12x1024x64_S1x1024x64_6_0_0 : ∀ a, (![6, 0, 0] : Fin 3 → Nat) a + S1x1024x64.size a ≤ S12x1024x64.size a
  slices_S1024x768_o0_448_S1024x64 : S1024x768.Slices ![0, 448] S1024x64
  inb_S12x1024x64_S1x1024x64_7_0_0 : ∀ a, (![7, 0, 0] : Fin 3 → Nat) a + S1x1024x64.size a ≤ S12x1024x64.size a
  slices_S1024x768_o0_512_S1024x64 : S1024x768.Slices ![0, 512] S1024x64
  inb_S12x1024x64_S1x1024x64_8_0_0 : ∀ a, (![8, 0, 0] : Fin 3 → Nat) a + S1x1024x64.size a ≤ S12x1024x64.size a
  slices_S1024x768_o0_576_S1024x64 : S1024x768.Slices ![0, 576] S1024x64
  inb_S12x1024x64_S1x1024x64_9_0_0 : ∀ a, (![9, 0, 0] : Fin 3 → Nat) a + S1x1024x64.size a ≤ S12x1024x64.size a
  slices_S1024x768_o0_640_S1024x64 : S1024x768.Slices ![0, 640] S1024x64
  inb_S12x1024x64_S1x1024x64_10_0_0 : ∀ a, (![10, 0, 0] : Fin 3 → Nat) a + S1x1024x64.size a ≤ S12x1024x64.size a
  slices_S1024x768_o0_704_S1024x64 : S1024x768.Slices ![0, 704] S1024x64
  inb_S12x1024x64_S1x1024x64_11_0_0 : ∀ a, (![11, 0, 0] : Fin 3 → Nat) a + S1x1024x64.size a ≤ S12x1024x64.size a
  dot_S24x1024_S1024x1024_S24x1024_1_1_0_0_n_n_wf : DotDims.WF S24x1024 S1024x1024 S24x1024 [1] [1] [0] [0] [] []
  dot_S1024x128_S128x768_S1024x768_1_0_0_1_n_n_wf : DotDims.WF S1024x128 S128x768 S1024x768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S2x1024x1024.size a
  hwx0_0 : ∀ i : grid0.Coords, EltTy.bits .f32 = 32 ∨ (Rect.block (s := S2x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S24x1024.size a ≤ S768x1024.size a
  hwx0_1 : ∀ i : grid0.Coords, EltTy.bits .f32 = 32 ∨ (Rect.block (s := S768x1024) S24x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S128x768.size a
  hwx0_2 : ∀ i : grid0.Coords, EltTy.bits .f32 = 32 ∨ (Rect.block (s := S128x768) S128x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S12x1024x64.size a ≤ S384x1024x64.size a
  hwx0_4 : ∀ i : grid0.Coords, EltTy.bits .f32 = 32 ∨ (Rect.block (s := S384x1024x64) S12x1024x64.size (cc0_transform_4 i) (hinb0_4 i)).WholeWords (EltTy.packing .f32)

variable [Facts₀]

def dot_S24x1024_S1024x1024_S24x1024_1_1_0_0_n_n : DotDims S24x1024 S1024x1024 S24x1024 where
  lhsContracting := [1]
  rhsContracting := [1]
  lhsNonContracting := [0]
  rhsNonContracting := [0]
  lhsBatch := []
  rhsBatch := []
  wf := dot_S24x1024_S1024x1024_S24x1024_1_1_0_0_n_n_wf
def dot_S1024x128_S128x768_S1024x768_1_0_0_1_n_n : DotDims S1024x128 S128x768 S1024x768 where
  lhsContracting := [1]
  rhsContracting := [0]
  lhsNonContracting := [0]
  rhsNonContracting := [1]
  lhsBatch := []
  rhsBatch := []
  wf := dot_S1024x128_S128x768_S1024x768_1_0_0_1_n_n_wf

abbrev win0_0 : Pipeline.Window sig grid0 :=
  Pipeline.Window.ofSpec (Memref.whole main_arg0) S2x1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S24x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S128x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S12x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x1024x1024 : Shape := ⟨3, ![2, 1024, 1024]⟩
abbrev S768x1024 : Shape := ⟨2, ![768, 1024]⟩
abbrev S10x64 : Shape := ⟨2, ![10, 64]⟩
abbrev S64 : Shape := ⟨1, ![64]⟩
abbrev S1024x768 : Shape := ⟨2, ![1024, 768]⟩
abbrev S1x1024x1024 : Shape := ⟨3, ![1, 1024, 1024]⟩
abbrev S1024x1024 : Shape := ⟨2, ![1024, 1024]⟩
abbrev S1x1024x768 : Shape := ⟨3, ![1, 1024, 768]⟩
abbrev S5x1024x768 : Shape := ⟨3, ![5, 1024, 768]⟩
abbrev S5x1024x384x2 : Shape := ⟨4, ![5, 1024, 384, 2]⟩
abbrev S384x1024x5x2 : Shape := ⟨4, ![384, 1024, 5, 2]⟩
abbrev S393216x10 : Shape := ⟨2, ![393216, 10]⟩
abbrev S393216x64 : Shape := ⟨2, ![393216, 64]⟩
abbrev S1x64 : Shape := ⟨2, ![1, 64]⟩
abbrev S384x1024x64 : Shape := ⟨3, ![384, 1024, 64]⟩

abbrev nBuf : Space → Nat
  | .hbm => 27
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S768x1024, .f32⟩
  | .hbm, ⟨2, _⟩ => ⟨S10x64, .f32⟩
  | .hbm, ⟨3, _⟩ => ⟨S64, .f32⟩
  | .hbm, ⟨4, _⟩ => ⟨S1024x768, .f32⟩
  | .hbm, ⟨5, _⟩ => ⟨S1x1024x1024, .f32⟩
  | .hbm, ⟨6, _⟩ => ⟨S1024x1024, .f32⟩
  | .hbm, ⟨7, _⟩ => ⟨S1024x768, .f32⟩
  | .hbm, ⟨8, _⟩ => ⟨S1024x768, .f32⟩
  | .hbm, ⟨9, _⟩ => ⟨S1x1024x1024, .f32⟩
  | .hbm, ⟨10, _⟩ => ⟨S1024x1024, .f32⟩
  | .hbm, ⟨11, _⟩ => ⟨S1024x768, .f32⟩
  | .hbm, ⟨12, _⟩ => ⟨S1024x768, .f32⟩
  | .hbm, ⟨13, _⟩ => ⟨S1x1024x768, .f32⟩
  | .hbm, ⟨14, _⟩ => ⟨S1x1024x768, .f32⟩
  | .hbm, ⟨15, _⟩ => ⟨S1x1024x768, .f32⟩
  | .hbm, ⟨16, _⟩ => ⟨S1x1024x768, .f32⟩
  | .hbm, ⟨17, _⟩ => ⟨S1x1024x768, .f32⟩
  | .hbm, ⟨18, _⟩ => ⟨S5x1024x768, .f32⟩
  | .hbm, ⟨19, _⟩ => ⟨S5x1024x384x2, .f32⟩
  | .hbm, ⟨20, _⟩ => ⟨S384x1024x5x2, .f32⟩
  | .hbm, ⟨21, _⟩ => ⟨S393216x10, .f32⟩
  | .hbm, ⟨22, _⟩ => ⟨S393216x64, .f32⟩
  | .hbm, ⟨23, _⟩ => ⟨S1x64, .f32⟩
  | .hbm, ⟨24, _⟩ => ⟨S393216x64, .f32⟩
  | .hbm, ⟨25, _⟩ => ⟨S393216x64, .f32⟩
  | .hbm, ⟨26, _⟩ => ⟨S384x1024x64, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]

class Facts₀ : Prop where
  transposes_S768x1024_S1024x768_1_0 : S768x1024.Transposes [1, 0] S1024x768
  slices_S2x1024x1024_S1x1024x1024_0_0_0 : S2x1024x1024.Slices ![0, 0, 0] S1x1024x1024
  shapeCasts_S1x1024x1024_S1024x1024 : S1x1024x1024.ShapeCasts S1024x1024
  slices_S2x1024x1024_S1x1024x1024_1_0_0 : S2x1024x1024.Slices ![1, 0, 0] S1x1024x1024
  bcast_S1024x768_S1x1024x768_1_2 : S1024x768.BroadcastsInDim S1x1024x768 (![1, 2] : Fin 2 → Fin S1x1024x768.rank)
  concatenates_S1x1024x768_S1x1024x768_S1x1024x768_S1x1024x768_S1x1024x768_S5x1024x768_d0 : Shape.Concatenates [S1x1024x768, S1x1024x768, S1x1024x768, S1x1024x768, S1x1024x768] S5x1024x768 0
  shapeCasts_S5x1024x768_S5x1024x384x2 : S5x1024x768.ShapeCasts S5x1024x384x2
  transposes_S5x1024x384x2_S384x1024x5x2_2_1_0_3 : S5x1024x384x2.Transposes [2, 1, 0, 3] S384x1024x5x2
  shapeCasts_S384x1024x5x2_S393216x10 : S384x1024x5x2.ShapeCasts S393216x10
  bcast_S64_S1x64_1 : S64.BroadcastsInDim S1x64 (![1] : Fin 1 → Fin S1x64.rank)
  bcast_S1x64_S393216x64_0_1 : S1x64.BroadcastsInDim S393216x64 (![0, 1] : Fin 2 → Fin S393216x64.rank)
  shapeCasts_S393216x64_S384x1024x64 : S393216x64.ShapeCasts S384x1024x64
  dot_S1024x1024_S1024x768_S1024x768_1_0_0_1_n_n_wf : DotDims.WF S1024x1024 S1024x768 S1024x768 [1] [0] [0] [1] [] []
  dot_S393216x10_S10x64_S393216x64_1_0_0_1_n_n_wf : DotDims.WF S393216x10 S10x64 S393216x64 [1] [0] [0] [1] [] []

variable [Facts₀]

def dot_S1024x1024_S1024x768_S1024x768_1_0_0_1_n_n : DotDims S1024x1024 S1024x768 S1024x768 where
  lhsContracting := [1]
  rhsContracting := [0]
  lhsNonContracting := [0]
  rhsNonContracting := [1]
  lhsBatch := []
  rhsBatch := []
  wf := dot_S1024x1024_S1024x768_S1024x768_1_0_0_1_n_n_wf
def dot_S393216x10_S10x64_S393216x64_1_0_0_1_n_n : DotDims S393216x10 S10x64 S393216x64 where
  lhsContracting := [1]
  rhsContracting := [0]
  lhsNonContracting := [0]
  rhsNonContracting := [1]
  lhsBatch := []
  rhsBatch := []
  wf := dot_S393216x10_S10x64_S393216x64_1_0_0_1_n_n_wf

class Facts : Prop extends Facts₀ where

variable [Facts]
-- ==== Proof.DiffusionConv.lean ====
/-
  Diffusion graph convolution as ONE function of the argument arrays, and the law that lets a block-diagonal
  packing of the weight stand for it.

  The signal `x` has a row `r = 2·bt + d` per (batch-time step `bt`, input channel `d`) and a column per node.
  One diffusion step pushes every row through a transition matrix `A`: `(diffuse A z) r n = Σ_k z r k · A n k`.
  From the two supports `A0`, `A1` five signals are made — `z`, `A0 z`, `A0² z`, `A1 z`, `A1² z` — and output
  feature `f = 2·m + d` of (bt, n) is signal `m` at row `2·bt + d`, node `n`. The result is
  `out bt n o = Σ_{f<10} feature f · W f o + b o`.

  Everything is over the extended reals. Only three facts about them are used: addition is a commutative monoid,
  multiplication is commutative, and `x · 0 = 0` for EVERY `x`, the infinities included. So nothing here asks the
  inputs to be finite.
-/
import Idealize.ShloMosaic.PureOps.Ideal
import Idealize.ShloMosaic.Lib.ValueIdx

noncomputable section

open Idealize.ShloMosaic Idealize.ShloMosaic.ValueIdx

namespace DiffusionConv

/-- One diffusion step, row by row: `(diffuse A z) r n = Σ_k z r k · A n k`. The row type is arbitrary, so a
    block of rows diffuses exactly as the rows it holds do. -/
def diffuse {R : Type} (A : Fin 1024 → Fin 1024 → EReal) (z : R → Fin 1024 → EReal) : R → Fin 1024 → EReal :=
  fun r n => ∑ k : Fin 1024, z r k * A n k

/-- The five diffused signals: `z`, `A0 z`, `A0 (A0 z)`, `A1 z`, `A1 (A1 z)`. -/
def feats {R : Type} (A0 A1 : Fin 1024 → Fin 1024 → EReal) (z : R → Fin 1024 → EReal) :
    Fin 5 → R → Fin 1024 → EReal :=
  ![z, diffuse A0 z, diffuse A0 (diffuse A0 z), diffuse A1 z, diffuse A1 (diffuse A1 z)]

/-- Diffusion acts on each row by itself: re-indexing the rows first or afterwards is the same. -/
theorem feats_comp {R R' : Type} (A0 A1 : Fin 1024 → Fin 1024 → EReal) (z : R → Fin 1024 → EReal) (e : R' → R)
    (m : Fin 5) (r : R') (n : Fin 1024) :
    feats A0 A1 (fun r' => z (e r')) m r n = feats A0 A1 z m (e r) n := by
  fin_cases m <;> rfl

/-- Feature `f = 2·m + d` of row pair `a` among `N` pairs: signal `m = f / 2` at row `2·a + f % 2`. -/
def feature {N : Nat} (A0 A1 : Fin 1024 → Fin 1024 → EReal) (z : Fin (2 * N) → Fin 1024 → EReal)
    (a : Fin N) (n : Fin 1024) (f : Fin 10) : EReal :=
  feats A0 A1 z ⟨f.val / 2, by have := f.isLt; omega⟩ ⟨2 * a.val + f.val % 2, by have := a.isLt; omega⟩ n

/-- The result at explicit coordinates: the ten features of (bt, n) against column `o` of the weight, plus the bias. -/
def outAt (S : (⟨3, ![2, 1024, 1024]⟩ : Shape).Idx → EReal) (x : (⟨2, ![768, 1024]⟩ : Shape).Idx → EReal)
    (W : (⟨2, ![10, 64]⟩ : Shape).Idx → EReal) (b : (⟨1, ![64]⟩ : Shape).Idx → EReal)
    (bt : Fin 384) (n : Fin 1024) (o : Fin 64) : EReal :=
  (∑ f : Fin 10, feature (N := 384) (fun n k => S (ix3 (0 : Fin 2) n k)) (fun n k => S (ix3 (1 : Fin 2) n k))
      (fun r k => x (ix2 r k)) bt n f * W (ix2 f o)) + b (ix1 o)

/-- The result array. -/
def out (S : (⟨3, ![2, 1024, 1024]⟩ : Shape).Idx → EReal) (x : (⟨2, ![768, 1024]⟩ : Shape).Idx → EReal)
    (W : (⟨2, ![10, 64]⟩ : Shape).Idx → EReal) (b : (⟨1, ![64]⟩ : Shape).Idx → EReal) :
    (⟨3, ![384, 1024, 64]⟩ : Shape).Idx → EReal :=
  fun i => outAt S x W b (i 0) (i 1) (i 2)

/-- THE PACKING LAW. Lay the features of twelve row pairs end to end, ten to a pair, in a vector `G` of 128
    entries (entry `10·a + f` is feature `f` of pair `a`; the last eight are zero), and pack the weight column
    `w` block-diagonally in `P` (entry `10·a + f` is `w f` where `a = t` and `0 · w f` elsewhere). Then
    `Σ_q G q · P q` is pair `t`'s ten features against `w`: every other term is `x · 0` or `0 · x`. -/
theorem packed_sum (t : Fin 12) (g : Fin 12 → Fin 10 → EReal) (w : Fin 10 → EReal) (G P : Fin 128 → EReal)
    (hG : ∀ (a : Fin 12) (f : Fin 10) (q : Fin 128), q.val = 10 * a.val + f.val → G q = g a f)
    (hP : ∀ (a : Fin 12) (f : Fin 10) (q : Fin 128), q.val = 10 * a.val + f.val →
      P q = (if a = t then (1 : EReal) else 0) * w f)
    (hG0 : ∀ q : Fin 128, 120 ≤ q.val → G q = 0) :
    ∑ q : Fin 128, G q * P q = ∑ f : Fin 10, g t f * w f := by
  have split : (∑ q : Fin 128, G q * P q)
      = (∑ q : Fin 120, G (Fin.castAdd 8 q) * P (Fin.castAdd 8 q))
        + ∑ q : Fin 8, G (Fin.natAdd 120 q) * P (Fin.natAdd 120 q) :=
    Fin.sum_univ_add (fun q : Fin (120 + 8) => G q * P q)
  have tail : (∑ q : Fin 8, G (Fin.natAdd 120 q) * P (Fin.natAdd 120 q)) = 0 :=
    Finset.sum_eq_zero fun q _ => by
      rw [hG0 (Fin.natAdd 120 q) (by show 120 ≤ 120 + q.val; omega), zero_mul]
  rw [split, tail, add_zero]
  have reindex : (∑ q : Fin 120, G (Fin.castAdd 8 q) * P (Fin.castAdd 8 q))
      = ∑ p : Fin 12 × Fin 10, G (Fin.castAdd 8 (finProdFinEquiv p)) * P (Fin.castAdd 8 (finProdFinEquiv p)) :=
    (Equiv.sum_comp (finProdFinEquiv (m := 12) (n := 10))
      (fun q : Fin (12 * 10) => G (Fin.castAdd 8 q) * P (Fin.castAdd 8 q))).symm
  rw [reindex, Fintype.sum_prod_type]
  have hq : ∀ (a : Fin 12) (f : Fin 10),
      (Fin.castAdd 8 (finProdFinEquiv (a, f)) : Fin 128).val = 10 * a.val + f.val := fun a f => by
    show f.val + 10 * a.val = 10 * a.val + f.val
    omega
  rw [Finset.sum_eq_single t]
  · exact Finset.sum_congr rfl fun f _ => by
      rw [hG t f _ (hq t f), hP t f _ (hq t f), if_pos rfl, one_mul]
  · intro a _ hat
    exact Finset.sum_eq_zero fun f _ => by
      rw [hP a f _ (hq a f), if_neg hat, zero_mul, mul_zero]
  · intro h
    exact absurd (Finset.mem_univ t) h

end DiffusionConv

end
-- ==== Proof.BodySum.lean ====
/-
  What one grid step's body computes, read at an index.

  The body holds 24 rows of the signal (12 row pairs), both supports, the packed weight `P3` [128, 768] and the
  tiled bias `P4` [1, 768]. It makes the four diffused blocks by products that contract the support's SECOND
  index, `(z ⋆ A) ρ n = Σ_k z ρ k · A n k`; views each of the five blocks as [12, 2, 1024]; lays them side by
  side on the middle axis, so that entry `(a, f)` is signal `f / 2` at row `2·a + f % 2`; flattens to 120 rows,
  row `10·a + f`; appends eight zero rows; transposes; and multiplies by `P3`, adding the bias row.

  So at `(n, c)` the body's value is `Σ_{q<128} G q · P3 q c + P4 0 c` with `G (10·a + f)` feature `f` of pair
  `a` at node `n` and `G q = 0` from 120 on. When column `c` of `P3` is a weight column `w` packed
  block-diagonally at pair `t`, the packing law leaves pair `t`'s ten features against `w`.
-/
import proofs.«152513_g249108103973_cont_8to1_160_2_alg».proof.Proof.Gen.KernelIdeal.Skeleton
import proofs.«152513_g249108103973_cont_8to1_160_2_alg».proof.Proof.DiffusionConv
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodySum

open Cert.KernelIdeal Cert.KernelIdeal.Gen Idealize.ShloMosaic Idealize.ShloMosaic.ValueIdx

/-! ## The layout steps, for any element type -/

section Layout
variable {α : Type}

/-- A [24, 1024] block viewed [12, 2, 1024]: entry `(a, d, n)` is row `2·a + d`. -/
theorem paired_apply (z : S24x1024.Idx → α) (h : S24x1024.ShapeCasts S12x2x1024) (a : Fin 12) (d : Fin 2)
    (n : Fin 1024) :
    shapeCast S12x2x1024 z h (ix3 a d n)
      = z (ix2 (⟨2 * a.val + d.val, by have := a.isLt; have := d.isLt; omega⟩ : Fin 24) n) :=
  shapeCast_apply z h _ _ (by
    rw [Shape.rowMajor_val_two, Shape.rowMajor_val_three]
    show (2 * a.val + d.val) * 1024 + n.val = (a.val * 2 + d.val) * 1024 + n.val
    omega)

/-- Five [12, 2, 1024] blocks side by side on the middle axis: entry `(a, f, n)` is block `f / 2` at
    `(a, f % 2, n)`. -/
theorem interleaved_apply (p0 p1 p2 p3 p4 : S12x2x1024.Idx → α)
    (h : Shape.Concatenates [S12x2x1024, S12x2x1024, S12x2x1024, S12x2x1024, S12x2x1024] S12x10x1024 1)
    (a : Fin 12) (f : Fin 10) (n : Fin 1024) :
    concatenate S12x10x1024 1
        [⟨S12x2x1024, p0⟩, ⟨S12x2x1024, p1⟩, ⟨S12x2x1024, p2⟩, ⟨S12x2x1024, p3⟩, ⟨S12x2x1024, p4⟩] h (ix3 a f n)
      = (![p0, p1, p2, p3, p4] : Fin 5 → S12x2x1024.Idx → α) ⟨f.val / 2, by have := f.isLt; omega⟩
          (ix3 a (⟨f.val % 2, by omega⟩ : Fin 2) n) :=
  concatenate_ofFn_apply (t := S12x10x1024) (s₁ := S12x2x1024) 1 ![p0, p1, p2, p3, p4] h rfl 2 rfl (ix3 a f n)
    ⟨f.val / 2, by have := f.isLt; omega⟩ rfl (ix3 a (⟨f.val % 2, by omega⟩ : Fin 2) n) rfl
    (fun b hb => by
      match b with
      | ⟨0, _⟩ => rfl
      | ⟨1, _⟩ => exact absurd rfl hb
      | ⟨2, _⟩ => rfl)

/-- Twelve pairs of ten rows flattened to 120: row `10·a + f` is entry `(a, f)`. -/
theorem flattened_apply (g : S12x10x1024.Idx → α) (h : S12x10x1024.ShapeCasts S120x1024) (a : Fin 12) (f : Fin 10)
    (n : Fin 1024) (q : Fin 120) (hq : q.val = 10 * a.val + f.val) :
    shapeCast S120x1024 g h (ix2 q n) = g (ix3 a f n) :=
  shapeCast_apply g h _ _ (by
    rw [Shape.rowMajor_val_three, Shape.rowMajor_val_two]
    show (a.val * 10 + f.val) * 1024 + n.val = q.val * 1024 + n.val
    rw [hq]
    omega)

/-- 120 rows with eight more below: a row under 120 is the first block's. -/
theorem padded_apply_of_lt (g : S120x1024.Idx → α) (z : S8x1024.Idx → α)
    (h : Shape.Concatenates [S120x1024, S8x1024] S128x1024 0) (q : Fin 128) (q' : Fin 120) (hq : q.val = q'.val)
    (n : Fin 1024) :
    concatenate S128x1024 0 [⟨S120x1024, g⟩, ⟨S8x1024, z⟩] h (ix2 q n) = g (ix2 q' n) :=
  concatenate_pair_apply_left 0 g z h _ rfl _ (fun b => by
    match b with
    | ⟨0, _⟩ => exact hq.symm
    | ⟨1, _⟩ => rfl)

/-- … and a row from 120 on is the second block's, 120 less. -/
theorem padded_apply_of_ge (g : S120x1024.Idx → α) (z : S8x1024.Idx → α)
    (h : Shape.Concatenates [S120x1024, S8x1024] S128x1024 0) (q : Fin 128) (q' : Fin 8) (hq : q'.val + 120 = q.val)
    (n : Fin 1024) :
    concatenate S128x1024 0 [⟨S120x1024, g⟩, ⟨S8x1024, z⟩] h (ix2 q n) = z (ix2 q' n) :=
  concatenate_pair_apply_right 0 g z h _ rfl rfl _
    (fun b hb => by
      match b with
      | ⟨0, _⟩ => exact absurd rfl hb
      | ⟨1, _⟩ => rfl)
    hq

end Layout

/-! ## The two products, as plain sums over the contracted coordinate -/

theorem lhs_step_0 (i : S24x1024.Idx) (q : dot_S24x1024_S1024x1024_S24x1024_1_1_0_0_n_n.contr.Idx) :
    (dot_S24x1024_S1024x1024_S24x1024_1_1_0_0_n_n.lhsIdx i q 0).val = (i 0).val := by
  unfold DotDims.lhsIdx
  rw [dif_neg (show ¬(0 : Fin S24x1024.rank) ∈ dot_S24x1024_S1024x1024_S24x1024_1_1_0_0_n_n.lhsBatch by decide), dif_pos (show (0 : Fin S24x1024.rank) ∈ dot_S24x1024_S1024x1024_S24x1024_1_1_0_0_n_n.lhsNonContracting by decide)]
  rfl
theorem lhs_step_1 (i : S24x1024.Idx) (q : dot_S24x1024_S1024x1024_S24x1024_1_1_0_0_n_n.contr.Idx) :
    (dot_S24x1024_S1024x1024_S24x1024_1_1_0_0_n_n.lhsIdx i q 1).val = (q ⟨0, by decide⟩).val :=
  dot_S24x1024_S1024x1024_S24x1024_1_1_0_0_n_n.lhsIdx_val_of_single rfl i q
theorem rhs_step_0 (i : S24x1024.Idx) (q : dot_S24x1024_S1024x1024_S24x1024_1_1_0_0_n_n.contr.Idx) :
    (dot_S24x1024_S1024x1024_S24x1024_1_1_0_0_n_n.rhsIdx i q 0).val = (i 1).val := by
  unfold DotDims.rhsIdx
  rw [dif_neg (show ¬(0 : Fin S1024x1024.rank) ∈ dot_S24x1024_S1024x1024_S24x1024_1_1_0_0_n_n.rhsBatch by decide), dif_pos (show (0 : Fin S1024x1024.rank) ∈ dot_S24x1024_S1024x1024_S24x1024_1_1_0_0_n_n.rhsNonContracting by decide)]
  rfl
theorem rhs_step_1 (i : S24x1024.Idx) (q : dot_S24x1024_S1024x1024_S24x1024_1_1_0_0_n_n.contr.Idx) :
    (dot_S24x1024_S1024x1024_S24x1024_1_1_0_0_n_n.rhsIdx i q 1).val = (q ⟨0, by decide⟩).val :=
  dot_S24x1024_S1024x1024_S24x1024_1_1_0_0_n_n.rhsIdx_val_of_single rfl i q

/-- A block of rows times a support, contracting the support's second index, into a zero accumulator:
    `Σ_k z ρ k · A n k`. -/
theorem step_apply (z : FVec Ideal S24x1024 .f32) (A : FVec Ideal S1024x1024 .f32) (ρ : Fin 24) (n : Fin 1024) :
    matmul dot_S24x1024_S1024x1024_S24x1024_1_1_0_0_n_n none z A (constant S24x1024 .f32 0x00000000#32) (ix2 ρ n)
      = ∑ k : Fin 1024, z (ix2 ρ k) * A (ix2 n k) := by
  simp only [matmul]
  rw [Ideal.matmul_constant_zero_apply, ← Equiv.sum_comp (ValueIdx.contrEquiv1 dot_S24x1024_S1024x1024_S24x1024_1_1_0_0_n_n 1024 rfl rfl).symm]
  refine Finset.sum_congr rfl fun k _ => ?_
  have hk := ValueIdx.contrEquiv1_symm_val dot_S24x1024_S1024x1024_S24x1024_1_1_0_0_n_n 1024 rfl rfl k
  have el : dot_S24x1024_S1024x1024_S24x1024_1_1_0_0_n_n.lhsIdx (ix2 ρ n) ((ValueIdx.contrEquiv1 dot_S24x1024_S1024x1024_S24x1024_1_1_0_0_n_n 1024 rfl rfl).symm k) = ix2 ρ k := funext fun a => Fin.ext (by
    match a with
    | ⟨0, _⟩ => exact lhs_step_0 _ _
    | ⟨1, _⟩ => exact (lhs_step_1 _ _).trans hk)
  have er : dot_S24x1024_S1024x1024_S24x1024_1_1_0_0_n_n.rhsIdx (ix2 ρ n) ((ValueIdx.contrEquiv1 dot_S24x1024_S1024x1024_S24x1024_1_1_0_0_n_n 1024 rfl rfl).symm k) = ix2 n k := funext fun a => Fin.ext (by
    match a with
    | ⟨0, _⟩ => exact rhs_step_0 _ _
    | ⟨1, _⟩ => exact (rhs_step_1 _ _).trans hk)
  rw [el, er]

theorem lhs_pack_0 (i : S1024x768.Idx) (q : dot_S1024x128_S128x768_S1024x768_1_0_0_1_n_n.contr.Idx) :
    (dot_S1024x128_S128x768_S1024x768_1_0_0_1_n_n.lhsIdx i q 0).val = (i 0).val := by
  unfold DotDims.lhsIdx
  rw [dif_neg (show ¬(0 : Fin S1024x128.rank) ∈ dot_S1024x128_S128x768_S1024x768_1_0_0_1_n_n.lhsBatch by decide), dif_pos (show (0 : Fin S1024x128.rank) ∈ dot_S1024x128_S128x768_S1024x768_1_0_0_1_n_n.lhsNonContracting by decide)]
  rfl
theorem lhs_pack_1 (i : S1024x768.Idx) (q : dot_S1024x128_S128x768_S1024x768_1_0_0_1_n_n.contr.Idx) :
    (dot_S1024x128_S128x768_S1024x768_1_0_0_1_n_n.lhsIdx i q 1).val = (q ⟨0, by decide⟩).val :=
  dot_S1024x128_S128x768_S1024x768_1_0_0_1_n_n.lhsIdx_val_of_single rfl i q
theorem rhs_pack_0 (i : S1024x768.Idx) (q : dot_S1024x128_S128x768_S1024x768_1_0_0_1_n_n.contr.Idx) :
    (dot_S1024x128_S128x768_S1024x768_1_0_0_1_n_n.rhsIdx i q 0).val = (q ⟨0, by decide⟩).val :=
  dot_S1024x128_S128x768_S1024x768_1_0_0_1_n_n.rhsIdx_val_of_single rfl i q
theorem rhs_pack_1 (i : S1024x768.Idx) (q : dot_S1024x128_S128x768_S1024x768_1_0_0_1_n_n.contr.Idx) :
    (dot_S1024x128_S128x768_S1024x768_1_0_0_1_n_n.rhsIdx i q 1).val = (i 1).val := by
  unfold DotDims.rhsIdx
  rw [dif_neg (show ¬(1 : Fin S128x768.rank) ∈ dot_S1024x128_S128x768_S1024x768_1_0_0_1_n_n.rhsBatch by decide), dif_pos (show (1 : Fin S128x768.rank) ∈ dot_S1024x128_S128x768_S1024x768_1_0_0_1_n_n.rhsNonContracting by decide)]
  rfl

/-- The transposed 128 rows times the packed weight, into a zero accumulator: `Σ_q L n q · R q c`. -/
theorem pack_apply (Lm : FVec Ideal S1024x128 .f32) (Rm : FVec Ideal S128x768 .f32) (n : Fin 1024) (c : Fin 768) :
    matmul dot_S1024x128_S128x768_S1024x768_1_0_0_1_n_n none Lm Rm (constant S1024x768 .f32 0x00000000#32) (ix2 n c)
      = ∑ q : Fin 128, Lm (ix2 n q) * Rm (ix2 q c) := by
  simp only [matmul]
  rw [Ideal.matmul_constant_zero_apply, ← Equiv.sum_comp (ValueIdx.contrEquiv1 dot_S1024x128_S128x768_S1024x768_1_0_0_1_n_n 128 rfl rfl).symm]
  refine Finset.sum_congr rfl fun k _ => ?_
  have hk := ValueIdx.contrEquiv1_symm_val dot_S1024x128_S128x768_S1024x768_1_0_0_1_n_n 128 rfl rfl k
  have el : dot_S1024x128_S128x768_S1024x768_1_0_0_1_n_n.lhsIdx (ix2 n c) ((ValueIdx.contrEquiv1 dot_S1024x128_S128x768_S1024x768_1_0_0_1_n_n 128 rfl rfl).symm k) = ix2 n k := funext fun a => Fin.ext (by
    match a with
    | ⟨0, _⟩ => exact lhs_pack_0 _ _
    | ⟨1, _⟩ => exact (lhs_pack_1 _ _).trans hk)
  have er : dot_S1024x128_S128x768_S1024x768_1_0_0_1_n_n.rhsIdx (ix2 n c) ((ValueIdx.contrEquiv1 dot_S1024x128_S128x768_S1024x768_1_0_0_1_n_n 128 rfl rfl).symm k) = ix2 k c := funext fun a => Fin.ext (by
    match a with
    | ⟨0, _⟩ => exact (rhs_pack_0 _ _).trans hk
    | ⟨1, _⟩ => exact rhs_pack_1 _ _)
  rw [el, er]

/-! ## The diffused blocks are the specification's diffusion of the block's rows -/

/-- One product of the body is one diffusion step of the rows it holds, through the support the load carries. -/
theorem step_eq (z : FVec Ideal S24x1024 .f32) (v : FVec Ideal S1x1024x1024 .f32)
    (h : S1x1024x1024.ShapeCasts S1024x1024) :
    (fun (ρ : Fin 24) (n : Fin 1024) =>
        matmul dot_S24x1024_S1024x1024_S24x1024_1_1_0_0_n_n none z (shapeCast S1024x1024 v h) (constant S24x1024 .f32 0x00000000#32) (ix2 ρ n))
      = DiffusionConv.diffuse (fun n k => v (ix3 (0 : Fin 1) n k)) (fun ρ k => z (ix2 ρ k)) := by
  funext ρ n
  refine (step_apply z _ ρ n).trans ?_
  show _ = ∑ k : Fin 1024, z (ix2 ρ k) * v (ix3 (0 : Fin 1) n k)
  exact Finset.sum_congr rfl fun k _ => by rw [shapeCast_1ab_ab_apply]

/-! ## The five blocks, viewed in pairs, are the five signals -/

/-- A support as the body uses it: the [1, 1024, 1024] load with its unit axis dropped. -/
abbrev sup (v : FVec Ideal S1x1024x1024 .f32) (hA : S1x1024x1024.ShapeCasts S1024x1024) : FVec Ideal S1024x1024 .f32 :=
  shapeCast S1024x1024 v hA

/-- One of the body's four products. -/
abbrev mm (z : FVec Ideal S24x1024 .f32) (A : FVec Ideal S1024x1024 .f32) : FVec Ideal S24x1024 .f32 :=
  matmul dot_S24x1024_S1024x1024_S24x1024_1_1_0_0_n_n none z A (constant S24x1024 .f32 0x00000000#32)

/-- Signal `m` of the block, viewed in row pairs, at `(a, d, n)` is the specification's signal `m` of the
    block's rows at row `2·a + d`, node `n`. -/
theorem signals_apply (P0 : FVec Ideal S24x1024 .f32) (P1 P2 : FVec Ideal S1x1024x1024 .f32)
    (hA : S1x1024x1024.ShapeCasts S1024x1024) (hp : S24x1024.ShapeCasts S12x2x1024)
    (m : Fin 5) (a : Fin 12) (d : Fin 2) (n : Fin 1024) :
    (![shapeCast S12x2x1024 P0 hp,
       shapeCast S12x2x1024 (mm P0 (sup P1 hA)) hp,
       shapeCast S12x2x1024 (mm (mm P0 (sup P1 hA)) (sup P1 hA)) hp,
       shapeCast S12x2x1024 (mm P0 (sup P2 hA)) hp,
       shapeCast S12x2x1024 (mm (mm P0 (sup P2 hA)) (sup P2 hA)) hp] : Fin 5 → S12x2x1024.Idx → EReal) m (ix3 a d n)
      = DiffusionConv.feats (fun n k => P1 (ix3 (0 : Fin 1) n k)) (fun n k => P2 (ix3 (0 : Fin 1) n k))
          (fun (ρ : Fin 24) k => P0 (ix2 ρ k)) m
          (⟨2 * a.val + d.val, by have := a.isLt; have := d.isLt; omega⟩ : Fin 24) n := by
  have e1 := step_eq P0 P1 hA
  have e1' := step_eq (mm P0 (sup P1 hA)) P1 hA
  have e2 := step_eq P0 P2 hA
  have e2' := step_eq (mm P0 (sup P2 hA)) P2 hA
  rw [e1] at e1'
  rw [e2] at e2'
  fin_cases m
  · exact paired_apply _ hp a d n
  · exact (paired_apply _ hp a d n).trans (congrFun (congrFun e1 _) n)
  · exact (paired_apply _ hp a d n).trans (congrFun (congrFun e1' _) n)
  · exact (paired_apply _ hp a d n).trans (congrFun (congrFun e2 _) n)
  · exact (paired_apply _ hp a d n).trans (congrFun (congrFun e2' _) n)

/-! ## The body's value at an index -/

/-- THE BODY AT `(n, c)`. If column `c` of the packed weight holds a weight column `w` block-diagonally at row
    pair `t` — entry `10·a + f` is `w f` for `a = t` and `0 · w f` otherwise — then the body's sum there is pair
    `t`'s ten features at node `n` against `w`, plus the bias row's entry `c`. -/
theorem body_apply (P0 : FVec Ideal S24x1024 .f32) (P1 P2 : FVec Ideal S1x1024x1024 .f32)
    (P3 : FVec Ideal S128x768 .f32) (P4 : FVec Ideal S1x768 .f32) (n : Fin 1024) (c : Fin 768) (t : Fin 12)
    (w : Fin 10 → EReal)
    (hP : ∀ (a : Fin 12) (f : Fin 10) (q : Fin 128), q.val = 10 * a.val + f.val →
      P3 (ix2 q c) = (if a = t then (1 : EReal) else 0) * w f) :
    k0_pay4 (F := Ideal) P0 P1 P2 P3 P4 (ix2 n c)
      = (∑ f : Fin 10, DiffusionConv.feature (N := 12) (fun n k => P1 (ix3 (0 : Fin 1) n k))
            (fun n k => P2 (ix3 (0 : Fin 1) n k)) (fun (ρ : Fin 24) k => P0 (ix2 ρ k)) t n f * w f)
        + P4 (ix2 (0 : Fin 1) c) := by
  unfold k0_pay4
  dsimp only
  refine (ValueIdx.addf_apply _ _ _).trans ?_
  refine congrArg₂ (· + ·) ?_ ?_
  · refine (pack_apply _ _ n c).trans ?_
    refine DiffusionConv.packed_sum t
      (fun a f => DiffusionConv.feature (N := 12) (fun n k => P1 (ix3 (0 : Fin 1) n k))
        (fun n k => P2 (ix3 (0 : Fin 1) n k)) (fun (ρ : Fin 24) k => P0 (ix2 ρ k)) a n f) w _ _ ?_ ?_ ?_
    · intro a f q hq
      refine (transpose_ix2_apply _ _ n q).trans ?_
      refine (padded_apply_of_lt _ _ _ q ⟨10 * a.val + f.val, by have := a.isLt; have := f.isLt; omega⟩ hq n).trans ?_
      refine (flattened_apply _ _ a f n _ rfl).trans ?_
      refine (interleaved_apply _ _ _ _ _ _ a f n).trans ?_
      exact signals_apply P0 P1 P2 _ _ ⟨f.val / 2, by have := f.isLt; omega⟩ a ⟨f.val % 2, by omega⟩ n
    · intro a f q hq
      exact (congrFun (shapeCast_self P3 _) _).trans (hP a f q hq)
    · intro q hq
      refine (transpose_ix2_apply _ _ n q).trans ?_
      refine (padded_apply_of_ge _ _ _ q ⟨q.val - 120, by have := q.isLt; omega⟩
        (by show q.val - 120 + 120 = q.val; omega) n).trans ?_
      exact Ideal.ofBits_zero_f32
  · refine (broadcastTo_1b_ab_apply _ _ n c).trans ?_
    exact congrFun (shapeCast_self P4 _) _

end Cert.KernelIdeal.BodySum

end
-- ==== Proof.PackedOperands.lean ====
/-
  The two operands the host prepares before the grid runs, read at an index.

  The packed weight is the Kronecker product of the 12×12 identity with the weight, `[120, 768]`, with eight
  zero rows below: entry `(10·a + f, 64·t + o)` is `I a t · W f o`, which is `W f o` on the diagonal blocks and
  `0 · W f o` off them. The identity's entries are the compare bit of two iotas read as a number — exactly 1
  or 0 — and the padding value is the integer zero read as a number — exactly 0.

  The tiled bias repeats the 64 biases twelve times along one row: entry `(0, 64·t + o)` is `b o`.
-/
import proofs.«152513_g249108103973_cont_8to1_160_2_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.Lib.StableHlo.Predicate

noncomputable section

namespace Cert.KernelIdeal.PackedOperands

open Cert.KernelIdeal Cert.KernelIdeal.Gen Idealize.ShloMosaic Idealize.ShloMosaic.TcCoe Idealize.ShloMosaic.ValueIdx
open Idealize.ShloMosaic.StableHlo Idealize.SL.Sem

/-- The 12×12 identity as the host makes it: the bit `row + 0 = column` of two iotas, read as a number. -/
def eye : FVec Ideal S12x12 .f32 :=
  uitofp (F := Ideal) .f32
    (cmpi .eq (addi (iotaInDim S12x12 32 0) (broadcastInDim S12x12 ![] bcast_S_S12x12 (constantI S_ 32 0#32)))
      (iotaInDim S12x12 32 1))

/-- The weight packed block-diagonally, twelve copies, then eight rows of the padding value. -/
def packedWeight (W : FVec Ideal S10x64 .f32) : FVec Ideal S128x768 .f32 :=
  pad S128x768 ![0, 0] ![8, 0] ![0, 0]
    (shapeCast S120x768
      (mulf
        (broadcastInDim S12x10x12x64 ![0, 1, 2, 3] bcast_S12x1x12x1_S12x10x12x64_0_1_2_3
          (broadcastInDim S12x1x12x1 ![0, 2] bcast_S12x12_S12x1x12x1_0_2 eye))
        (broadcastInDim S12x10x12x64 ![0, 1, 2, 3] bcast_S1x10x1x64_S12x10x12x64_0_1_2_3
          (broadcastInDim S1x10x1x64 ![1, 3] bcast_S10x64_S1x10x1x64_1_3 W)))
      shapeCasts_S12x10x12x64_S120x768)
    (sitofp (F := Ideal) .f32 (constantI S_ 32 0#32)) pads_S120x768_S128x768_080_000 h_S_

/-- The biases repeated twelve times along one row. -/
def tiledBias (b : FVec Ideal S64 .f32) : FVec Ideal S1x768 .f32 :=
  shapeCast S1x768
    (shapeCast S768
      (broadcastInDim S12x64 ![0, 1] bcast_S1x64_S12x64_0_1 (shapeCast S1x64 b shapeCasts_S64_S1x64))
      shapeCasts_S12x64_S768)
    shapeCasts_S768_S1x768

/-- The identity's entry: 1 on the diagonal, 0 off it, exactly. -/
theorem eye_apply (a b : Fin 12) : eye (ix2 a b) = if a = b then (1 : EReal) else 0 := by
  have hz : broadcastInDim S12x12 ![] bcast_S_S12x12 (constantI S_ 32 0#32) (ix2 a b) = 0#32 :=
    broadcastInDim_apply _ _ _ (ix2 a b) ix0 (fun x => x.elim0)
  have ha : a.val < 12 := a.isLt
  have hb : b.val < 12 := b.isLt
  show (((IntOp.cmpi .eq (IntOp.addi (BitVec.ofNat 32 a.val)
      (broadcastInDim S12x12 ![] bcast_S_S12x12 (constantI S_ 32 0#32) (ix2 a b))) (BitVec.ofNat 32 b.val)).toNat : ℝ) : EReal) = _
  rw [hz]
  by_cases h : a = b
  · subst h
    have e : IntOp.cmpi .eq (IntOp.addi (BitVec.ofNat 32 a.val) 0#32) (BitVec.ofNat 32 a.val) = 1#1 :=
      Predicate.cmpi_eq_iff.mpr (by simp [IntOp.addi])
    rw [e, if_pos rfl]
    simp
  · have e : IntOp.cmpi .eq (IntOp.addi (BitVec.ofNat 32 a.val) 0#32) (BitVec.ofNat 32 b.val) = 0#1 :=
      eq_zero_of_ne_one fun h1 => h (Fin.ext (by
        have h2 := Predicate.cmpi_eq_iff.mp h1
        simp only [IntOp.addi, BitVec.add_zero] at h2
        have h3 := congrArg BitVec.toNat h2
        simp only [BitVec.toNat_ofNat] at h3
        omega))
    rw [e, if_neg h]
    simp

/-- The packed weight at row `10·a + f`, column `64·t + o`: the identity's entry `(a, t)` times `W f o`. -/
theorem packedWeight_apply (W : FVec Ideal S10x64 .f32) (a t : Fin 12) (f : Fin 10) (o : Fin 64) (q : Fin 128)
    (c : Fin 768) (hq : q.val = 10 * a.val + f.val) (hc : c.val = 64 * t.val + o.val) :
    packedWeight W (ix2 q c) = (if a = t then (1 : EReal) else 0) * W (ix2 f o) := by
  have ha : a.val < 12 := a.isLt
  have hf : f.val < 10 := f.isLt
  unfold packedWeight
  refine (pad_apply_of_inside _ _ _ _ _ _ _ (ix2 q c) (ix2 (⟨q.val, by omega⟩ : Fin 120) c) (fun ax => by
    match ax with
    | ⟨0, _⟩ => show q.val = 0 + q.val * (0 + 1); omega
    | ⟨1, _⟩ => show c.val = 0 + c.val * (0 + 1); omega)).trans ?_
  refine (shapeCast_apply _ _ _ (ix4 a f t o) (by
    rw [Shape.rowMajor_val_four, Shape.rowMajor_val_two]
    show ((a.val * 10 + f.val) * 12 + t.val) * 64 + o.val = q.val * 768 + c.val
    rw [hq, hc]
    omega)).trans ?_
  refine (ValueIdx.mulf_apply _ _ _).trans ?_
  refine congrArg₂ (· * ·) ?_ ?_
  · refine (broadcastInDim_apply _ _ _ (ix4 a f t o) (ix4 a (0 : Fin 1) t (0 : Fin 1)) (fun ax => by
      match ax with
      | ⟨0, _⟩ => rfl
      | ⟨1, _⟩ => rfl
      | ⟨2, _⟩ => rfl
      | ⟨3, _⟩ => rfl)).trans ?_
    refine (broadcastInDim_apply _ _ _ (ix4 a (0 : Fin 1) t (0 : Fin 1)) (ix2 a t) (fun ax => by
      match ax with
      | ⟨0, _⟩ => rfl
      | ⟨1, _⟩ => rfl)).trans ?_
    exact eye_apply a t
  · refine (broadcastInDim_apply _ _ _ (ix4 a f t o) (ix4 (0 : Fin 1) f (0 : Fin 1) o) (fun ax => by
      match ax with
      | ⟨0, _⟩ => rfl
      | ⟨1, _⟩ => rfl
      | ⟨2, _⟩ => rfl
      | ⟨3, _⟩ => rfl)).trans ?_
    exact broadcastInDim_apply _ _ _ (ix4 (0 : Fin 1) f (0 : Fin 1) o) (ix2 f o) (fun ax => by
      match ax with
      | ⟨0, _⟩ => rfl
      | ⟨1, _⟩ => rfl)

/-- The tiled bias at column `64·t + o` is bias `o`. -/
theorem tiledBias_apply (b : FVec Ideal S64 .f32) (t : Fin 12) (o : Fin 64) (c : Fin 768)
    (hc : c.val = 64 * t.val + o.val) :
    tiledBias b (ix2 (0 : Fin 1) c) = b (ix1 o) := by
  unfold tiledBias
  refine (shapeCast_apply _ _ _ (ix1 c) (by
    rw [Shape.rowMajor_val_one, Shape.rowMajor_val_two]
    show c.val = 0 * 768 + c.val
    omega)).trans ?_
  refine (shapeCast_apply _ _ _ (ix2 t o) (by
    rw [Shape.rowMajor_val_two, Shape.rowMajor_val_one]
    show t.val * 64 + o.val = c.val
    omega)).trans ?_
  refine (broadcastInDim_apply _ _ _ (ix2 t o) (ix2 (0 : Fin 1) o) (fun ax => by
    match ax with
    | ⟨0, _⟩ => rfl
    | ⟨1, _⟩ => rfl)).trans ?_
  exact shapeCast_apply _ _ _ (ix1 o) (by
    rw [Shape.rowMajor_val_one, Shape.rowMajor_val_two]
    show o.val = 0 * 64 + o.val
    omega)

/-! ## What the grid finds in the two operands' arrays -/

variable (m : (ℓ : Loc nD τ sig) → Buf (Elt Ideal) ℓ)

/-- When the grid starts, the third operand's array holds the packed weight of the weight argument. -/
theorem V_packedWeight (c : Dev nD) :
    (V m c main_call0_v7 : S128x768.Idx → EReal) = packedWeight (m ((c : Thread nD τ).loc main_arg2)) := by
  dsimp only [Gen.V, Gen.hostOps0]
  after_results
  rfl

/-- … and the fourth operand's array the tiled bias of the bias argument. -/
theorem V_tiledBias (c : Dev nD) :
    (V m c main_call0_v11 : S1x768.Idx → EReal) = tiledBias (m ((c : Thread nD τ).loc main_arg3)) := by
  dsimp only [Gen.V, Gen.hostOps0]
  after_results
  rfl

end Cert.KernelIdeal.PackedOperands

end
-- ==== Proof.KernelValue.lean ====
/-
  From what one grid step writes to the whole result array.

  Grid step `t` (of 32) holds rows `24·t … 24·t + 23` of the signal — row pairs `12·t … 12·t + 11` — and both
  supports, the packed weight and the tiled bias whole. Its output block is `[12, 1024, 64]`: entry `(a, n, o)`
  is the body's sum at `(n, 64·a + o)`, which by the body's theorem is row pair `a`'s ten features at node `n`
  against weight column `o` plus bias `o`. A block's rows diffuse as the signal's rows do, so that is the
  specification at `(12·t + a, n, o)` — exactly where the block's entry lands in the `[384, 1024, 64]` array.
  The 32 blocks tile the array, so the array ends holding the specification everywhere.
-/
import proofs.«152513_g249108103973_cont_8to1_160_2_alg».proof.Proof.Gen.KernelIdeal.Value
import proofs.«152513_g249108103973_cont_8to1_160_2_alg».proof.Proof.BodySum
import proofs.«152513_g249108103973_cont_8to1_160_2_alg».proof.Proof.PackedOperands
import proofs.«152513_g249108103973_cont_8to1_160_2_alg».proof.Proof.DiffusionConv
import Idealize.ShloMosaic.Lib.Pipeline.Value
import Idealize.ShloMosaic.Lib.ValueIdx

noncomputable section

namespace Cert.KernelIdeal.KernelValue

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-! ## The arguments and the specification of them -/

abbrev supports (c : Dev nD) : FVec Ideal S2x1024x1024 .f32 := m ((c : Thread nD τ).loc main_arg0)
abbrev signal (c : Dev nD) : FVec Ideal S768x1024 .f32 := m ((c : Thread nD τ).loc main_arg1)
abbrev weight (c : Dev nD) : FVec Ideal S10x64 .f32 := m ((c : Thread nD τ).loc main_arg2)
abbrev biases (c : Dev nD) : FVec Ideal S64 .f32 := m ((c : Thread nD τ).loc main_arg3)

/-- What the result array is to hold. -/
abbrev spec (c : Dev nD) : S384x1024x64.Idx → EReal :=
  DiffusionConv.out (supports m c) (signal m c) (weight m c) (biases m c)

/-! ## Where each grid step's blocks lie -/

theorem hz2 : (![0, 0] : Fin 2 → Nat) = fun _ => 0 := funext fun a => by fin_cases a <;> rfl

theorem lt_points (t : Fin cfg0.N) : t.val < 32 := lt_of_lt_of_eq t.isLt N_0

/-- The printed index maps, decided over the 32 grid steps: the supports, the packed weight and the bias row are
    always block 0; the signal's and the result's block is the step itself. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Row `r` of step `t`'s signal block is row `24·t + r` of the signal. -/
def rowOf (t : Fin cfg0.N) (r : Fin 24) : Fin 768 :=
  ⟨24 * t.val + r.val, by have := lt_points t; have := r.isLt; omega⟩

/-- Row pair `a` of step `t` is row pair `12·t + a`. -/
def pairOf (t : Fin cfg0.N) (a : Fin 12) : Fin 384 :=
  ⟨12 * t.val + a.val, by have := lt_points t; have := a.isLt; omega⟩

/-! ## The blocks a step is handed, by their literal types -/

abbrev supBlk (c : Dev nD) (t : Fin cfg0.N) : Vec Ideal S2x1024x1024 .f32 := iblk m c 0 t
abbrev sigBlk (c : Dev nD) (t : Fin cfg0.N) : Vec Ideal S24x1024 .f32 := iblk m c 1 t
abbrev wBlk (c : Dev nD) (t : Fin cfg0.N) : Vec Ideal S128x768 .f32 := iblk m c 2 t
abbrev bBlk (c : Dev nD) (t : Fin cfg0.N) : Vec Ideal S1x768 .f32 := iblk m c 3 t

/-- Every step is handed the supports whole. -/
theorem supBlk_apply (c : Dev nD) (t : Fin cfg0.N) (y : S2x1024x1024.Idx) : supBlk m c t y = supports m c y := by
  obtain ⟨e0, e1, e2, -⟩ := idx_facts t
  show V m c main_arg0 (((cfg0.win 0).blk t).view.emb y) = _
  rw [V_main_arg0]
  refine congrArg (supports m c) (funext fun a => Fin.ext ?_)
  match a with
  | ⟨0, _⟩ => show win0_0.index t (0 : Fin 3) * 2 + 1 * (y 0).val = (y 0).val; omega
  | ⟨1, _⟩ => show win0_0.index t (1 : Fin 3) * 1024 + 1 * (y 1).val = (y 1).val; omega
  | ⟨2, _⟩ => show win0_0.index t (2 : Fin 3) * 1024 + 1 * (y 2).val = (y 2).val; omega

/-- Step `t` is handed rows `24·t …` of the signal. -/
theorem sigBlk_apply (c : Dev nD) (t : Fin cfg0.N) (r : Fin 24) (k : Fin 1024) :
    sigBlk m c t (ix2 r k) = signal m c (ix2 (rowOf t r) k) := by
  obtain ⟨-, -, -, e0, e1, -⟩ := idx_facts t
  show V m c main_arg1 (((cfg0.win 1).blk t).view.emb (ix2 r k)) = _
  rw [V_main_arg1]
  refine congrArg (signal m c) (funext fun a => Fin.ext ?_)
  match a with
  | ⟨0, _⟩ => show win0_1.index t (0 : Fin 2) * 24 + 1 * r.val = 24 * t.val + r.val; omega
  | ⟨1, _⟩ => show win0_1.index t (1 : Fin 2) * 1024 + 1 * k.val = k.val; omega

/-- Every step is handed the packed weight whole. -/
theorem wBlk_apply (c : Dev nD) (t : Fin cfg0.N) (y : S128x768.Idx) :
    wBlk m c t y = PackedOperands.packedWeight (weight m c) y := by
  obtain ⟨-, -, -, -, -, e0, e1, -⟩ := idx_facts t
  show V m c main_call0_v7 (((cfg0.win 2).blk t).view.emb y) = _
  rw [PackedOperands.V_packedWeight]
  refine congrArg (PackedOperands.packedWeight (weight m c)) (funext fun a => Fin.ext ?_)
  match a with
  | ⟨0, _⟩ => show win0_2.index t (0 : Fin 2) * 128 + 1 * (y 0).val = (y 0).val; omega
  | ⟨1, _⟩ => show win0_2.index t (1 : Fin 2) * 768 + 1 * (y 1).val = (y 1).val; omega

/-- Every step is handed the tiled bias whole. -/
theorem bBlk_apply (c : Dev nD) (t : Fin cfg0.N) (y : S1x768.Idx) :
    bBlk m c t y = PackedOperands.tiledBias (biases m c) y := by
  obtain ⟨-, -, -, -, -, -, -, e0, e1, -⟩ := idx_facts t
  show V m c main_call0_v11 (((cfg0.win 3).blk t).view.emb y) = _
  rw [PackedOperands.V_tiledBias]
  refine congrArg (PackedOperands.tiledBias (biases m c)) (funext fun a => Fin.ext ?_)
  match a with
  | ⟨0, _⟩ => show win0_3.index t (0 : Fin 2) * 1 + 1 * (y 0).val = (y 0).val; omega
  | ⟨1, _⟩ => show win0_3.index t (1 : Fin 2) * 768 + 1 * (y 1).val = (y 1).val; omega

/-! ## The body's five loads -/

/-- The first support is the load at `[0, 0, 0]` of the supports' block. -/
theorem ld_support0 (Xs : Vec Ideal S2x1024x1024 .f32) (n k : Fin 1024) :
    View.ld Xs r0_1 (ix3 (0 : Fin 1) n k) = Xs (ix3 (0 : Fin 2) n k) :=
  congrArg Xs (funext fun a => Fin.ext (by
    match a with
    | ⟨0, _⟩ => rfl
    | ⟨1, _⟩ => show 0 + 1 * n.val = n.val; omega
    | ⟨2, _⟩ => show 0 + 1 * k.val = k.val; omega))

/-- The second support is the load at `[1, 0, 0]`. -/
theorem ld_support1 (Xs : Vec Ideal S2x1024x1024 .f32) (n k : Fin 1024) :
    View.ld Xs r0_2 (ix3 (0 : Fin 1) n k) = Xs (ix3 (1 : Fin 2) n k) :=
  congrArg Xs (funext fun a => Fin.ext (by
    match a with
    | ⟨0, _⟩ => rfl
    | ⟨1, _⟩ => show 0 + 1 * n.val = n.val; omega
    | ⟨2, _⟩ => show 0 + 1 * k.val = k.val; omega))

theorem ld_signal (Xs : Vec Ideal S24x1024 .f32) : View.ld Xs r0_0 = Xs :=
  View.ld_unit_zero (S := S24x1024) hz2 _ Xs
theorem ld_weight (Xs : Vec Ideal S128x768 .f32) : View.ld Xs r0_3 = Xs :=
  View.ld_unit_zero (S := S128x768) hz2 _ Xs
theorem ld_bias (Xs : Vec Ideal S1x768 .f32) : View.ld Xs r0_4 = Xs :=
  View.ld_unit_zero (S := S1x768) hz2 _ Xs

/-! ## One step's output block is the specification's block -/

/-- Entry `(a, n, o)` of the block step `t` writes is the specification where that entry lands. -/
theorem block_value (c : Dev nD) (t : Fin cfg0.N) (a : Fin 12) (n : Fin 1024) (o : Fin 64) :
    out0_4 (F := Ideal) (supBlk m c t) (sigBlk m c t) (wBlk m c t) (bBlk m c t) (ix3 a n o)
      = spec m c (ix3 (pairOf t a) n o) := by
  have ha : a.val < 12 := a.isLt
  have ho : o.val < 64 := o.isLt
  unfold out0_4
  refine (Value.canon4_eq _ _ _ _ _ (ix3 a n o)).trans ?_
  have eix : ix4_0 (ix3 a n o) = ix2 n (⟨64 * a.val + o.val, by omega⟩ : Fin 768) := funext fun b => Fin.ext (by
    match b with
    | ⟨0, _⟩ => rfl
    | ⟨1, _⟩ => show a.val * 64 + o.val = 64 * a.val + o.val; omega)
  show k0_pay4 (F := Ideal) (View.ld (sigBlk m c t) r0_0) (View.ld (supBlk m c t) r0_1) (View.ld (supBlk m c t) r0_2)
      (View.ld (wBlk m c t) r0_3) (View.ld (bBlk m c t) r0_4) (ix4_0 (ix3 a n o)) = _
  rw [eix]
  refine (BodySum.body_apply _ _ _ _ _ n _ a (fun f => weight m c (ix2 f o)) ?_).trans ?_
  · intro a' f q hq
    rw [ld_weight, wBlk_apply]
    exact PackedOperands.packedWeight_apply (weight m c) a' a f o q _ hq rfl
  · have hA0 : (fun (n k : Fin 1024) => View.ld (supBlk m c t) r0_1 (ix3 (0 : Fin 1) n k))
        = fun n k => supports m c (ix3 (0 : Fin 2) n k) := by
      funext n k; rw [ld_support0, supBlk_apply]
    have hA1 : (fun (n k : Fin 1024) => View.ld (supBlk m c t) r0_2 (ix3 (0 : Fin 1) n k))
        = fun n k => supports m c (ix3 (1 : Fin 2) n k) := by
      funext n k; rw [ld_support1, supBlk_apply]
    have hZ : (fun (r : Fin 24) (k : Fin 1024) => View.ld (sigBlk m c t) r0_0 (ix2 r k))
        = fun r k => signal m c (ix2 (rowOf t r) k) := by
      funext r k; rw [ld_signal, sigBlk_apply]
    rw [hA0, hA1, hZ, ld_bias, bBlk_apply]
    show _ = DiffusionConv.outAt (supports m c) (signal m c) (weight m c) (biases m c) (pairOf t a) n o
    unfold DiffusionConv.outAt
    refine congrArg₂ (· + ·) (Finset.sum_congr rfl fun f _ => congrArg (· * weight m c (ix2 f o)) ?_)
      (PackedOperands.tiledBias_apply (biases m c) a o _ rfl)
    unfold DiffusionConv.feature
    refine (DiffusionConv.feats_comp _ _ (fun r k => signal m c (ix2 r k)) (rowOf t) _ _ n).trans ?_
    exact congrArg (fun r => DiffusionConv.feats _ _ (fun r k => signal m c (ix2 r k)) _ r n) (Fin.ext (by
      show 24 * t.val + (2 * a.val + f.val % 2) = 2 * (12 * t.val + a.val) + f.val % 2
      omega))

/-- The same at an index of the block: entry `y` lands at `(12·t + y₀, y₁, y₂)`. -/
theorem block_value_idx (c : Dev nD) (t : Fin cfg0.N) (y : S12x1024x64.Idx) :
    out0_4 (F := Ideal) (supBlk m c t) (sigBlk m c t) (wBlk m c t) (bBlk m c t) y
      = spec m c (ix3 (pairOf t (y 0)) (y 1) (y 2)) := by
  exact (congrArg (out0_4 (F := Ideal) (supBlk m c t) (sigBlk m c t) (wBlk m c t) (bBlk m c t)) (eq_ix3 y)).trans
    (block_value m c t (y 0) (y 1) (y 2))

/-- WHAT STEP `t` WRITES BACK is block `t` of the specification. -/
theorem flushed_eq (c : Dev nD) (t : Fin cfg0.N) :
    (dats m 0 c).flushed 4 t = ((cfg0.win 4).blk t).view.read (Elt Ideal) (spec m c) := by
  rw [Value.flushed4]
  obtain ⟨-, -, -, -, -, -, -, -, -, e0, e1, e2⟩ := idx_facts t
  show (fun y : S12x1024x64.Idx => out0_4 (F := Ideal) (supBlk m c t) (sigBlk m c t) (wBlk m c t) (bBlk m c t) y)
      = fun y : S12x1024x64.Idx => spec m c (((cfg0.win 4).blk t).view.emb y)
  funext y
  refine (block_value_idx m c t y).trans (congrArg (spec m c) (funext fun b => Fin.ext ?_))
  match b with
  | ⟨0, _⟩ => show 12 * t.val + (y 0).val = win0_4.index t (0 : Fin 3) * 12 + 1 * (y 0).val; omega
  | ⟨1, _⟩ => show (y 1).val = win0_4.index t (1 : Fin 3) * 1024 + 1 * (y 1).val; omega
  | ⟨2, _⟩ => show (y 2).val = win0_4.index t (2 : Fin 3) * 64 + 1 * (y 2).val; omega

/-! ## The 32 blocks tile the array -/

/-- An index of the array is in step `t`'s block iff each coordinate is in the block's range on its axis. -/
theorem mem_blk (t : Fin cfg0.N) (i : S384x1024x64.Idx) :
    i ∈ ((cfg0.win 4).blk t).view.set ↔ ∀ a : Fin 3, win0_4.index t a * S12x1024x64.size a ≤ (i a).val
      ∧ (i a).val < win0_4.index t a * S12x1024x64.size a + S12x1024x64.size a := by
  show i ∈ ((View.whole main_v0).slice (win0_4.rect t)).set ↔ _
  rw [View.set_slice_whole, Rect.mem_set_unit]
  exact Iff.rfl

/-- Every index of the result array is in the block of the step its leading coordinate over 12 names. -/
theorem covered (i : S384x1024x64.Idx) :
    ∃ t : Fin cfg0.N, (cfg0.win 4).flush t = true ∧ i ∈ ((cfg0.win 4).blk t).view.set := by
  have h0 : (i 0).val < 384 := (i 0).isLt
  have h1 : (i 1).val < 1024 := (i 1).isLt
  have h2 : (i 2).val < 64 := (i 2).isLt
  let t : Fin cfg0.N := ⟨(i 0).val / 12, lt_of_lt_of_eq (by omega : (i 0).val / 12 < 32) N_0.symm⟩
  obtain ⟨-, -, -, -, -, -, -, -, -, e0, e1, e2⟩ := idx_facts t
  have ht : t.val = (i 0).val / 12 := rfl
  refine ⟨t, flush0_4 t, (mem_blk t i).mpr fun a => ?_⟩
  match a with
  | ⟨0, _⟩ =>
    show win0_4.index t (0 : Fin 3) * 12 ≤ (i 0).val ∧ (i 0).val < win0_4.index t (0 : Fin 3) * 12 + 12
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 64 ≤ (i 2).val ∧ (i 2).val < win0_4.index t (2 : Fin 3) * 64 + 64
    omega

/-- THE RESULT ARRAY after the run is the specification of the arguments. -/
theorem final (c : Dev nD) : (dats m 0 c).arrAt 4 cfg0.N = spec m c :=
  (dats m 0 c).arrAt_eq_of_cover 4 (spec m c) (fun t _ => flushed_eq m c t) covered

/-! ## The run, read -/

/-- Every weakly fair execution ends with the result array at the specification and the arguments unchanged. -/
theorem run : θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.ReferenceValue.lean ====
/-
  The reference, read back as the specification.

  The reference transposes the signal to [node, row], multiplies it from the LEFT by each support once and twice
  (`(A y) n r = Σ_k A n k · y k r`), stacks the five [1024, 768] results, regroups the 768 rows as (bt, d),
  brings bt to the front and (signal, d) to the back as ten features, multiplies by the weight and adds the
  bias. Against the specification's `Σ_k z r k · A n k` the only algebra is that a product commutes; the rest is
  the arithmetic of the re-layouts' index maps.
-/
import proofs.«152513_g249108103973_cont_8to1_160_2_alg».proof.Proof.Gen.ReferenceIdeal.Read
import proofs.«152513_g249108103973_cont_8to1_160_2_alg».proof.Proof.DiffusionConv
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- Support `s` as a matrix of the node pair. -/
abbrev A (x0 : (⟨S2x1024x1024, .f32⟩ : BufTy).Contents (Elt Ideal)) (s : Fin 2) : Fin 1024 → Fin 1024 → EReal :=
  fun n k => x0 (ix3 s n k)

/-- The signal, rows first. -/
abbrev X (x1 : (⟨S768x1024, .f32⟩ : BufTy).Contents (Elt Ideal)) : Fin 768 → Fin 1024 → EReal :=
  fun r k => x1 (ix2 r k)

/-- The first support, sliced out and reshaped, at `(n, k)`. -/
theorem support0_apply (x0 : (⟨S2x1024x1024, .f32⟩ : BufTy).Contents (Elt Ideal)) (n k : Fin 1024) :
    val_main_v2 (F := Ideal) x0 (ix2 n k) = x0 (ix3 (0 : Fin 2) n k) := by
  rw [val_main_v2_apply, val_main_v1_apply]
  have hn : n.val < 1024 := n.isLt
  have hk : k.val < 1024 := k.isLt
  exact congrArg x0 (funext fun a => Fin.ext (by
    match a with
    | ⟨0, _⟩ => rfl
    | ⟨1, _⟩ => show (n.val * 1024 + k.val) / 1024 % 1024 = n.val; omega
    | ⟨2, _⟩ => show (n.val * 1024 + k.val) % 1024 = k.val; omega))

/-- The second support at `(n, k)`. -/
theorem support1_apply (x0 : (⟨S2x1024x1024, .f32⟩ : BufTy).Contents (Elt Ideal)) (n k : Fin 1024) :
    val_main_v6 (F := Ideal) x0 (ix2 n k) = x0 (ix3 (1 : Fin 2) n k) := by
  rw [val_main_v6_apply, val_main_v5_apply]
  have hn : n.val < 1024 := n.isLt
  have hk : k.val < 1024 := k.isLt
  exact congrArg x0 (funext fun a => Fin.ext (by
    match a with
    | ⟨0, _⟩ => rfl
    | ⟨1, _⟩ => show (n.val * 1024 + k.val) / 1024 % 1024 = n.val; omega
    | ⟨2, _⟩ => show (n.val * 1024 + k.val) % 1024 = k.val; omega))

/-- The transposed signal at `(n, r)` is the signal at `(r, n)`. -/
theorem signal_apply (x1 : (⟨S768x1024, .f32⟩ : BufTy).Contents (Elt Ideal)) (n : Fin 1024) (r : Fin 768) :
    val_main_v0 (F := Ideal) x1 (ix2 n r) = x1 (ix2 r n) := by
  rw [val_main_v0_apply]
  exact congrArg x1 (funext fun a => Fin.ext (by match a with | ⟨0, _⟩ => rfl | ⟨1, _⟩ => rfl))

/-! ## The four products are diffusion steps -/

/-- The first support applied once. -/
theorem once0_eq (x0 : (⟨S2x1024x1024, .f32⟩ : BufTy).Contents (Elt Ideal)) (x1 : (⟨S768x1024, .f32⟩ : BufTy).Contents (Elt Ideal)) :
    (fun (r : Fin 768) (n : Fin 1024) => val_main_v3 (F := Ideal) x0 x1 (ix2 n r))
      = DiffusionConv.diffuse (A x0 0) (X x1) := by
  funext r n
  rw [val_main_v3_apply]
  show _ = ∑ k : Fin 1024, x1 (ix2 r k) * x0 (ix3 (0 : Fin 2) n k)
  refine Finset.sum_congr rfl fun k _ => ?_
  have el : lidx_main_v3 (ix2 n r) k = ix2 n k := funext fun a => Fin.ext (by match a with | ⟨0, _⟩ => rfl | ⟨1, _⟩ => rfl)
  have er : ridx_main_v3 (ix2 n r) k = ix2 k r := funext fun a => Fin.ext (by match a with | ⟨0, _⟩ => rfl | ⟨1, _⟩ => rfl)
  rw [el, er, support0_apply, signal_apply, mul_comm]

/-- The first support applied twice. -/
theorem twice0_eq (x0 : (⟨S2x1024x1024, .f32⟩ : BufTy).Contents (Elt Ideal)) (x1 : (⟨S768x1024, .f32⟩ : BufTy).Contents (Elt Ideal)) :
    (fun (r : Fin 768) (n : Fin 1024) => val_main_v4 (F := Ideal) x0 x1 (ix2 n r))
      = DiffusionConv.diffuse (A x0 0) (DiffusionConv.diffuse (A x0 0) (X x1)) := by
  funext r n
  rw [val_main_v4_apply]
  show _ = ∑ k : Fin 1024, DiffusionConv.diffuse (A x0 0) (X x1) r k * x0 (ix3 (0 : Fin 2) n k)
  refine Finset.sum_congr rfl fun k _ => ?_
  have el : lidx_main_v4 (ix2 n r) k = ix2 n k := funext fun a => Fin.ext (by match a with | ⟨0, _⟩ => rfl | ⟨1, _⟩ => rfl)
  have er : ridx_main_v4 (ix2 n r) k = ix2 k r := funext fun a => Fin.ext (by match a with | ⟨0, _⟩ => rfl | ⟨1, _⟩ => rfl)
  rw [el, er, support0_apply, mul_comm]
  exact congrArg (· * x0 (ix3 (0 : Fin 2) n k)) (congrFun (congrFun (once0_eq x0 x1) r) k)

/-- The second support applied once. -/
theorem once1_eq (x0 : (⟨S2x1024x1024, .f32⟩ : BufTy).Contents (Elt Ideal)) (x1 : (⟨S768x1024, .f32⟩ : BufTy).Contents (Elt Ideal)) :
    (fun (r : Fin 768) (n : Fin 1024) => val_main_v7 (F := Ideal) x0 x1 (ix2 n r))
      = DiffusionConv.diffuse (A x0 1) (X x1) := by
  funext r n
  rw [val_main_v7_apply]
  show _ = ∑ k : Fin 1024, x1 (ix2 r k) * x0 (ix3 (1 : Fin 2) n k)
  refine Finset.sum_congr rfl fun k _ => ?_
  have el : lidx_main_v7 (ix2 n r) k = ix2 n k := funext fun a => Fin.ext (by match a with | ⟨0, _⟩ => rfl | ⟨1, _⟩ => rfl)
  have er : ridx_main_v7 (ix2 n r) k = ix2 k r := funext fun a => Fin.ext (by match a with | ⟨0, _⟩ => rfl | ⟨1, _⟩ => rfl)
  rw [el, er, support1_apply, signal_apply, mul_comm]

/-- The second support applied twice. -/
theorem twice1_eq (x0 : (⟨S2x1024x1024, .f32⟩ : BufTy).Contents (Elt Ideal)) (x1 : (⟨S768x1024, .f32⟩ : BufTy).Contents (Elt Ideal)) :
    (fun (r : Fin 768) (n : Fin 1024) => val_main_v8 (F := Ideal) x0 x1 (ix2 n r))
      = DiffusionConv.diffuse (A x0 1) (DiffusionConv.diffuse (A x0 1) (X x1)) := by
  funext r n
  rw [val_main_v8_apply]
  show _ = ∑ k : Fin 1024, DiffusionConv.diffuse (A x0 1) (X x1) r k * x0 (ix3 (1 : Fin 2) n k)
  refine Finset.sum_congr rfl fun k _ => ?_
  have el : lidx_main_v8 (ix2 n r) k = ix2 n k := funext fun a => Fin.ext (by match a with | ⟨0, _⟩ => rfl | ⟨1, _⟩ => rfl)
  have er : ridx_main_v8 (ix2 n r) k = ix2 k r := funext fun a => Fin.ext (by match a with | ⟨0, _⟩ => rfl | ⟨1, _⟩ => rfl)
  rw [el, er, support1_apply, mul_comm]
  exact congrArg (· * x0 (ix3 (1 : Fin 2) n k)) (congrFun (congrFun (once1_eq x0 x1) r) k)

/-! ## The stack of five: slab `m` is signal `m` -/

/-- The concatenation of the five results along a new leading axis, at `(m, n, r)`: the specification's signal
    `m` at row `r`, node `n`. -/
theorem slab_apply (x0 : (⟨S2x1024x1024, .f32⟩ : BufTy).Contents (Elt Ideal)) (x1 : (⟨S768x1024, .f32⟩ : BufTy).Contents (Elt Ideal))
    (m : Fin 5) (n : Fin 1024) (r : Fin 768) :
    val_main_v14 (F := Ideal) x0 x1 (ix3 m n r) = DiffusionConv.feats (A x0 0) (A x0 1) (X x1) m r n := by
  unfold val_main_v14
  refine (concatenate_ofFn_unit_apply (t := S5x1024x768) (s₁ := S1x1024x768) 0
    ![val_main_v9 (F := Ideal) x1, val_main_v10 (F := Ideal) x0 x1, val_main_v11 (F := Ideal) x0 x1,
      val_main_v12 (F := Ideal) x0 x1, val_main_v13 (F := Ideal) x0 x1]
    concatenates_S1x1024x768_S1x1024x768_S1x1024x768_S1x1024x768_S1x1024x768_S5x1024x768_d0 rfl rfl (ix3 m n r) m rfl
    (ix3 (0 : Fin 1) n r) (fun b hb => by
      match b with
      | ⟨0, _⟩ => exact absurd rfl hb
      | ⟨1, _⟩ => rfl
      | ⟨2, _⟩ => rfl)).trans ?_
  fin_cases m
  · show val_main_v9 (F := Ideal) x1 (ix3 (0 : Fin 1) n r) = _
    rw [val_main_v9_apply]
    have e : idx_main_v9 (ix3 (0 : Fin 1) n r) = ix2 n r := funext fun a => Fin.ext (by match a with | ⟨0, _⟩ => rfl | ⟨1, _⟩ => rfl)
    rw [e]
    exact signal_apply x1 n r
  · show val_main_v10 (F := Ideal) x0 x1 (ix3 (0 : Fin 1) n r) = _
    rw [val_main_v10_apply]
    have e : idx_main_v10 (ix3 (0 : Fin 1) n r) = ix2 n r := funext fun a => Fin.ext (by match a with | ⟨0, _⟩ => rfl | ⟨1, _⟩ => rfl)
    rw [e]
    exact congrFun (congrFun (once0_eq x0 x1) r) n
  · show val_main_v11 (F := Ideal) x0 x1 (ix3 (0 : Fin 1) n r) = _
    rw [val_main_v11_apply]
    have e : idx_main_v11 (ix3 (0 : Fin 1) n r) = ix2 n r := funext fun a => Fin.ext (by match a with | ⟨0, _⟩ => rfl | ⟨1, _⟩ => rfl)
    rw [e]
    exact congrFun (congrFun (twice0_eq x0 x1) r) n
  · show val_main_v12 (F := Ideal) x0 x1 (ix3 (0 : Fin 1) n r) = _
    rw [val_main_v12_apply]
    have e : idx_main_v12 (ix3 (0 : Fin 1) n r) = ix2 n r := funext fun a => Fin.ext (by match a with | ⟨0, _⟩ => rfl | ⟨1, _⟩ => rfl)
    rw [e]
    exact congrFun (congrFun (once1_eq x0 x1) r) n
  · show val_main_v13 (F := Ideal) x0 x1 (ix3 (0 : Fin 1) n r) = _
    rw [val_main_v13_apply]
    have e : idx_main_v13 (ix3 (0 : Fin 1) n r) = ix2 n r := funext fun a => Fin.ext (by match a with | ⟨0, _⟩ => rfl | ⟨1, _⟩ => rfl)
    rw [e]
    exact congrFun (congrFun (twice1_eq x0 x1) r) n

/-! ## The result -/

/-- The reference's result array is the specification's, index by index. -/
theorem result_eq (x0 : (⟨S2x1024x1024, .f32⟩ : BufTy).Contents (Elt Ideal)) (x1 : (⟨S768x1024, .f32⟩ : BufTy).Contents (Elt Ideal))
    (x2 : (⟨S10x64, .f32⟩ : BufTy).Contents (Elt Ideal)) (x3 : (⟨S64, .f32⟩ : BufTy).Contents (Elt Ideal)) :
    val_main_v22 (F := Ideal) x0 x1 x2 x3 = DiffusionConv.out x0 x1 x2 x3 := by
  funext i
  obtain ⟨bt, n, o, rfl⟩ : ∃ (bt : Fin 384) (n : Fin 1024) (o : Fin 64), i = ix3 bt n o := ⟨i 0, i 1, i 2, eq_ix3 i⟩
  have hbt : bt.val < 384 := bt.isLt
  have hn : n.val < 1024 := n.isLt
  have ho : o.val < 64 := o.isLt
  show _ = DiffusionConv.outAt x0 x1 x2 x3 bt n o
  rw [val_main_v22_apply, val_main_v21_apply]
  have e22 : idx_main_v22 (ix3 bt n o) = ix2 (⟨bt.val * 1024 + n.val, by omega⟩ : Fin 393216) o :=
    funext fun a => Fin.ext (by
      match a with
      | ⟨0, _⟩ => show ((bt.val * 1024 + n.val) * 64 + o.val) / 64 = bt.val * 1024 + n.val; omega
      | ⟨1, _⟩ => show ((bt.val * 1024 + n.val) * 64 + o.val) % 64 = o.val; omega)
  rw [e22, val_main_v18_apply, val_main_v20_apply, val_main_v19_apply]
  refine congrArg₂ (· + ·) (Finset.sum_congr rfl fun k _ => ?_) (congrArg x3 ?_)
  · have hk : k.val < 10 := k.isLt
    refine congrArg₂ (· * ·) ?_ (congrArg x2 ?_)
    · rw [val_main_v17_apply, val_main_v16_apply, val_main_v15_apply]
      have h1 : ((bt.val * 1024 + n.val) * 10 + k.val) / 2 % 5 = k.val / 2 := by omega
      have h2 : ((bt.val * 1024 + n.val) * 10 + k.val) / 10 % 1024 = n.val := by omega
      have h3 : ((bt.val * 1024 + n.val) * 10 + k.val) / 10240 = bt.val := by omega
      have h4 : ((bt.val * 1024 + n.val) * 10 + k.val) % 2 = k.val % 2 := by omega
      have e : idx_main_v15 (idx_main_v16 (idx_main_v17 (lidx_main_v18 (ix2 (⟨bt.val * 1024 + n.val, by omega⟩ : Fin 393216) o) k)))
          = ix3 (⟨k.val / 2, by omega⟩ : Fin 5) n (⟨2 * bt.val + k.val % 2, by omega⟩ : Fin 768) :=
        funext fun a => Fin.ext (by
          match a with
          | ⟨0, _⟩ => show ((((((bt.val * 1024 + n.val) * 10 + k.val) / 2 % 5) * 1024 + ((bt.val * 1024 + n.val) * 10 + k.val) / 10 % 1024) * 384 + ((bt.val * 1024 + n.val) * 10 + k.val) / 10240) * 2 + ((bt.val * 1024 + n.val) * 10 + k.val) % 2) / 786432 = k.val / 2; rw [h1, h2, h3, h4]; omega
          | ⟨1, _⟩ => show ((((((bt.val * 1024 + n.val) * 10 + k.val) / 2 % 5) * 1024 + ((bt.val * 1024 + n.val) * 10 + k.val) / 10 % 1024) * 384 + ((bt.val * 1024 + n.val) * 10 + k.val) / 10240) * 2 + ((bt.val * 1024 + n.val) * 10 + k.val) % 2) / 768 % 1024 = n.val; rw [h1, h2, h3, h4]; clear h1 h2 h3 h4; have s1 : (((k.val / 2 * 1024 + n.val) * 384 + bt.val) * 2 + k.val % 2) / 768 = k.val / 2 * 1024 + n.val := (by omega); rw [s1]; omega
          | ⟨2, _⟩ => show ((((((bt.val * 1024 + n.val) * 10 + k.val) / 2 % 5) * 1024 + ((bt.val * 1024 + n.val) * 10 + k.val) / 10 % 1024) * 384 + ((bt.val * 1024 + n.val) * 10 + k.val) / 10240) * 2 + ((bt.val * 1024 + n.val) * 10 + k.val) % 2) % 768 = 2 * bt.val + k.val % 2; rw [h1, h2, h3, h4]; omega)
      rw [e]
      exact slab_apply x0 x1 _ n _
    · exact funext fun a => Fin.ext (by match a with | ⟨0, _⟩ => rfl | ⟨1, _⟩ => rfl)
  · exact funext fun a => Fin.ext (by match a with | ⟨0, _⟩ => rfl)

end Cert.ReferenceIdeal.RefValue

end
-- ==== Proof.lean ====
/-
  A fused diffusion graph convolution against its plain reference, over the extended reals.

  Both programs compute, for batch-time step `bt`, node `n` and output channel `o`,
  `out bt n o = Σ_{f<10} feature f · W f o + b o`, where feature `f = 2·m + d` is diffused signal `m` (the
  signal itself, or one or two steps through either support) at row `2·bt + d`, node `n`
  (`DiffusionConv.out`).

  The reference transposes the signal and multiplies by the supports from the left; the kernel keeps rows first
  and contracts each support's second index, so the two agree factor by factor once a product is commuted. The
  kernel then handles twelve `bt` at a time: it lays their 120 features (and eight zeros) along one axis and
  multiplies by the weight packed block-diagonally, `kron(I₁₂, W)` with eight zero rows. Every term off the
  diagonal block is `x · (0 · w)` and every padding term `0 · 0`, and `x · 0 = 0` for every extended real, so the
  128-term sum is the ten-term one (`DiffusionConv.packed_sum`). No step distributes a product over a sum or
  cancels, so the inputs' finiteness is never used.

  The kernel's run and frame, and the reference's run, are the generated modules'; what is proved here is that
  each result array is `DiffusionConv.out` of the arguments (`KernelValue.run`, `RefValue.result_eq`).
-/
import proofs.«152513_g249108103973_cont_8to1_160_2_alg».proof.Defs
import proofs.«152513_g249108103973_cont_8to1_160_2_alg».proof.Proof.Gen.Kernel
import proofs.«152513_g249108103973_cont_8to1_160_2_alg».proof.Proof.Gen.Kernel.Skeleton
import proofs.«152513_g249108103973_cont_8to1_160_2_alg».proof.Proof.Gen.Kernel.Launch
import proofs.«152513_g249108103973_cont_8to1_160_2_alg».proof.Proof.Gen.Kernel.Points
import proofs.«152513_g249108103973_cont_8to1_160_2_alg».proof.Proof.Gen.Kernel.Frame
import proofs.«152513_g249108103973_cont_8to1_160_2_alg».proof.Proof.Gen.KernelIdeal
import proofs.«152513_g249108103973_cont_8to1_160_2_alg».proof.Proof.Gen.KernelIdeal.Skeleton
import proofs.«152513_g249108103973_cont_8to1_160_2_alg».proof.Proof.Gen.KernelIdeal.Launch
import proofs.«152513_g249108103973_cont_8to1_160_2_alg».proof.Proof.Gen.KernelIdeal.Points
import proofs.«152513_g249108103973_cont_8to1_160_2_alg».proof.Proof.Gen.KernelIdeal.Frame
import proofs.«152513_g249108103973_cont_8to1_160_2_alg».proof.Proof.Gen.ReferenceIdeal
import proofs.«152513_g249108103973_cont_8to1_160_2_alg».proof.Proof.Gen.Pre_finite_inputs
import proofs.«152513_g249108103973_cont_8to1_160_2_alg».proof.Proof.Gen.KernelIdeal.Value
import proofs.«152513_g249108103973_cont_8to1_160_2_alg».proof.Proof.Gen.ReferenceIdeal.Run
import proofs.«152513_g249108103973_cont_8to1_160_2_alg».proof.Proof.Gen.ReferenceIdeal.Read
import proofs.«152513_g249108103973_cont_8to1_160_2_alg».proof.Proof.KernelValue
import proofs.«152513_g249108103973_cont_8to1_160_2_alg».proof.Proof.ReferenceValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result array at
    `DiffusionConv.out` of those arguments: the kernel's by its blocks, the reference's by its operations. -/
theorem algebraic : Cert.algebraic_KernelIdeal_ReferenceIdeal := by
  intro m ρ m' ρ' _ hagree
  refine ⟨fun c => Cert.KernelIdeal.KernelValue.spec m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
